-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x36x1024 : Shape := ⟨3, ![256, 36, 1024]⟩
abbrev S256x64x1024 : Shape := ⟨3, ![256, 64, 1024]⟩
abbrev S256x64 : Shape := ⟨2, ![256, 64]⟩
abbrev S_ : Shape := ⟨0, ![]⟩

class Facts : Prop where
  bcast_S_S256x36x1024 : S_.BroadcastsInDim S256x36x1024 (![] : Fin 0 → Fin S256x36x1024.rank)
  reducesTo_S256x36x1024_S_d0_1_2 : S256x36x1024.ReducesTo [0, 1, 2] S_
  h_S_ : 0 < S_.numel
  bcast_S_S256x64x1024 : S_.BroadcastsInDim S256x64x1024 (![] : Fin 0 → Fin S256x64x1024.rank)
  reducesTo_S256x64x1024_S_d0_1_2 : S256x64x1024.ReducesTo [0, 1, 2] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S256x36x1024 .f32) (main_arg1 : FVec F S256x64x1024 .f32) (main_arg2 : FVec F S256x64 .f32) : IVec S_ 1 :=
  let main_v0 : FVec F S256x36x1024 .f32 := Host.absf main_arg0
  let main_cst : FVec F S_ .f32 := constant S_ .f32 0x7F800000#32
  let main_v1 : FVec F S256x36x1024 .f32 := broadcastInDim S256x36x1024 ![] bcast_S_S256x36x1024 main_cst
  let main_v2 : IVec S256x36x1024 1 := cmpf .olt main_v0 main_v1
  let main_c : IVec S_ 1 := constantI S_ 1 1#1
  let main_v3 : IVec S_ 1 := (fun x v => Host.reduce IntOp.andi x v reducesTo_S256x36x1024_S_d0_1_2 h_S_) main_v2 main_c
  let main_v4 : FVec F S256x64x1024 .f32 := Host.absf main_arg1
  let main_cst_0 : FVec F S_ .f32 := constant S_ .f32 0x7F800000#32
  let main_v5 : FVec F S256x64x1024 .f32 := broadcastInDim S256x64x1024 ![] bcast_S_S256x64x1024 main_cst_0
  let main_v6 : IVec S256x64x1024 1 := cmpf .olt main_v4 main_v5
  let main_c_1 : IVec S_ 1 := constantI S_ 1 1#1
  let main_v7 : IVec S_ 1 := (fun x v => Host.reduce IntOp.andi x v reducesTo_S256x64x1024_S_d0_1_2 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S256x36x1024 : Shape := ⟨3, ![256, 36, 1024]⟩
abbrev S256x64x1024 : Shape := ⟨3, ![256, 64, 1024]⟩
abbrev S256x64 : Shape := ⟨2, ![256, 64]⟩
abbrev S32x36x1024 : Shape := ⟨3, ![32, 36, 1024]⟩
abbrev S32x64x1024 : Shape := ⟨3, ![32, 64, 1024]⟩
abbrev S32x36x64 : Shape := ⟨3, ![32, 36, 64]⟩
abbrev S32x36 : Shape := ⟨2, ![32, 36]⟩
abbrev S32x64 : Shape := ⟨2, ![32, 64]⟩
abbrev S32x36x1 : Shape := ⟨3, ![32, 36, 1]⟩
abbrev S32x1x64 : Shape := ⟨3, ![32, 1, 64]⟩

abbrev nBuf : Space → Nat
  | .hbm => 4
  | .vmem => 6
  | .smem => 0
  | _ => 0

abbrev bufTy : (tb : Table) → Fin (tcTables nBuf tb) → BufTy
  | .hbm, ⟨0, _⟩ => ⟨S256x36x1024, .f32⟩
  | .hbm, ⟨1, _⟩ => ⟨S256x64x1024, .f32⟩
  | .hbm, ⟨2, _⟩ => ⟨S256x64, .f32⟩
  | .hbm, ⟨3, _⟩ => ⟨S256x64x1024, .f32⟩
  | .local _ .vmem, ⟨0, _⟩ => ⟨S32x36x1024, .f32⟩
  | .local _ .vmem, ⟨1, _⟩ => ⟨S32x36x1024, .f32⟩
  | .local _ .vmem, ⟨2, _⟩ => ⟨S32x64x1024, .f32⟩
  | .local _ .vmem, ⟨3, _⟩ => ⟨S32x64x1024, .f32⟩
  | .local _ .vmem, ⟨4, _⟩ => ⟨S32x64x1024, .f32⟩
  | .local _ .vmem, ⟨5, _⟩ => ⟨S32x64x1024, .f32⟩
  | _, _ => ⟨S256x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x36x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x36x1024_S32x36x1024_0_0_0 : ∀ a, (![0, 0, 0] : Fin 3 → Nat) a + S32x36x1024.size a ≤ S32x36x1024.size a
  h_S32x36x1024 : 0 < S32x36x1024.numel
  inb_S32x64x1024_S32x64x1024_0_0_0 : ∀ a, (![0, 0, 0] : Fin 3 → Nat) a + S32x64x1024.size a ≤ S32x64x1024.size a
  h_S32x64x1024 : 0 < S32x64x1024.numel
  reduces_S32x36x1024_S32x36 : S32x36x1024.Reduces [2] S32x36
  reduces_S32x64x1024_S32x64 : S32x64x1024.Reduces [2] S32x64
  shapeCasts_S32x36_S32x36x1 : S32x36.ShapeCasts S32x36x1
  shapeCasts_S32x64_S32x1x64 : S32x64.ShapeCasts S32x1x64
  broadcasts_S32x36x1_S32x36x64 : S32x36x1.Broadcasts S32x36x64
  broadcasts_S32x1x64_S32x36x64 : S32x1x64.Broadcasts S32x36x64
  reduces_S32x36x64_S32x64 : S32x36x64.Reduces [1] S32x64
  dot_S32x36x1024_S32x64x1024_S32x36x64_2_2_1_1_0_0_wf : DotDims.WF S32x36x1024 S32x64x1024 S32x36x64 [2] [2] [1] [1] [0] [0]
  dot_S32x36x64_S32x36x1024_S32x64x1024_1_1_2_2_0_0_wf : DotDims.WF S32x36x64 S32x36x1024 S32x64x1024 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x36x1024.size a ≤ S256x36x1024.size a
  hwx0_0 : ∀ i : grid0.Coords, EltTy.bits .f32 = 32 ∨ (Rect.block (s := S256x36x1024) S32x36x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x1024.size a ≤ S256x64x1024.size a
  hwx0_1 : ∀ i : grid0.Coords, EltTy.bits .f32 = 32 ∨ (Rect.block (s := S256x64x1024) S32x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64x1024.size a ≤ S256x64x1024.size a
  hwx0_2 : ∀ i : grid0.Coords, EltTy.bits .f32 = 32 ∨ (Rect.block (s := S256x64x1024) S32x64x1024.size (cc0_transform_2 i) (hinb0_2 i)).WholeWords (EltTy.packing .f32)

variable [Facts₀]

def dot_S32x36x1024_S32x64x1024_S32x36x64_2_2_1_1_0_0 : DotDims S32x36x1024 S32x64x1024 S32x36x64 where
  lhsContracting := [2]
  rhsContracting := [2]
  lhsNonContracting := [1]
  rhsNonContracting := [1]
  lhsBatch := [0]
  rhsBatch := [0]
  wf := dot_S32x36x1024_S32x64x1024_S32x36x64_2_2_1_1_0_0_wf
def dot_S32x36x64_S32x36x1024_S32x64x1024_1_1_2_2_0_0 : DotDims S32x36x64 S32x36x1024 S32x64x1024 where
  lhsContracting := [1]
  rhsContracting := [1]
  lhsNonContracting := [2]
  rhsNonContracting := [2]
  lhsBatch := [0]
  rhsBatch := [0]
  wf := dot_S32x36x64_S32x36x1024_S32x64x1024_1_1_2_2_0_0_wf

abbrev win0_0 : Pipeline.Window sig grid0 :=
  Pipeline.Window.ofSpec (Memref.whole main_arg0) S32x36x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x36x1024 : Shape := ⟨3, ![256, 36, 1024]⟩
abbrev S256x64x1024 : Shape := ⟨3, ![256, 64, 1024]⟩
abbrev S256x64 : Shape := ⟨2, ![256, 64]⟩
abbrev S256x36x64 : Shape := ⟨3, ![256, 36, 64]⟩
abbrev S_ : Shape := ⟨0, ![]⟩
abbrev S256x36 : Shape := ⟨2, ![256, 36]⟩
abbrev S256x36x1 : Shape := ⟨3, ![256, 36, 1]⟩
abbrev S256x1x64 : Shape := ⟨3, ![256, 1, 64]⟩

abbrev nBuf : Space → Nat
  | .hbm => 36
  | .vmem => 0
  | .smem => 0
  | _ => 0

abbrev bufTy : (tb : Table) → Fin (tcTables nBuf tb) → BufTy
  | .hbm, ⟨0, _⟩ => ⟨S256x36x1024, .f32⟩
  | .hbm, ⟨1, _⟩ => ⟨S256x64x1024, .f32⟩
  | .hbm, ⟨2, _⟩ => ⟨S256x64, .f32⟩
  | .hbm, ⟨3, _⟩ => ⟨S256x36x64, .f32⟩
  | .hbm, ⟨4, _⟩ => ⟨S256x36x1024, .f32⟩
  | .hbm, ⟨5, _⟩ => ⟨S_, .f32⟩
  | .hbm, ⟨6, _⟩ => ⟨S256x36, .f32⟩
  | .hbm, ⟨7, _⟩ => ⟨S256x36, .f32⟩
  | .hbm, ⟨8, _⟩ => ⟨S256x64x1024, .f32⟩
  | .hbm, ⟨9, _⟩ => ⟨S_, .f32⟩
  | .hbm, ⟨10, _⟩ => ⟨S256x64, .f32⟩
  | .hbm, ⟨11, _⟩ => ⟨S256x64, .f32⟩
  | .hbm, ⟨12, _⟩ => ⟨S256x36x1, .f32⟩
  | .hbm, ⟨13, _⟩ => ⟨S256x1x64, .f32⟩
  | .hbm, ⟨14, _⟩ => ⟨S256x36x64, .f32⟩
  | .hbm, ⟨15, _⟩ => ⟨S256x36x64, .f32⟩
  | .hbm, ⟨16, _⟩ => ⟨S256x36x64, .f32⟩
  | .hbm, ⟨17, _⟩ => ⟨S_, .f32⟩
  | .hbm, ⟨18, _⟩ => ⟨S256x36x64, .f32⟩
  | .hbm, ⟨19, _⟩ => ⟨S256x36x64, .f32⟩
  | .hbm, ⟨20, _⟩ => ⟨S256x36x64, .f32⟩
  | .hbm, ⟨21, _⟩ => ⟨S_, .f32⟩
  | .hbm, ⟨22, _⟩ => ⟨S256x64, .f32⟩
  | .hbm, ⟨23, _⟩ => ⟨S_, .f32⟩
  | .hbm, ⟨24, _⟩ => ⟨S256x64, .f32⟩
  | .hbm, ⟨25, _⟩ => ⟨S256x64, .f32⟩
  | .hbm, ⟨26, _⟩ => ⟨S256x1x64, .f32⟩
  | .hbm, ⟨27, _⟩ => ⟨S256x36x64, .f32⟩
  | .hbm, ⟨28, _⟩ => ⟨S256x36x64, .f32⟩
  | .hbm, ⟨29, _⟩ => ⟨S256x36x64, .f32⟩
  | .hbm, ⟨30, _⟩ => ⟨S_, .f32⟩
  | .hbm, ⟨31, _⟩ => ⟨S256x64, .f32⟩
  | .hbm, ⟨32, _⟩ => ⟨S256x1x64, .f32⟩
  | .hbm, ⟨33, _⟩ => ⟨S256x36x64, .f32⟩
  | .hbm, ⟨34, _⟩ => ⟨S256x36x64, .f32⟩
  | .hbm, ⟨35, _⟩ => ⟨S256x64x1024, .f32⟩
  | _, _ => ⟨S256x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S256x36x1024_S256x36_d2 : S256x36x1024.ReducesTo [2] S256x36
  h_S_ : 0 < S_.numel
  reducesTo_S256x64x1024_S256x64_d2 : S256x64x1024.ReducesTo [2] S256x64
  bcast_S256x36_S256x36x1_0_1 : S256x36.BroadcastsInDim S256x36x1 (![0, 1] : Fin 2 → Fin S256x36x1.rank)
  bcast_S256x64_S256x1x64_0_2 : S256x64.BroadcastsInDim S256x1x64 (![0, 2] : Fin 2 → Fin S256x1x64.rank)
  bcast_S256x36x1_S256x36x64_0_1_2 : S256x36x1.BroadcastsInDim S256x36x64 (![0, 1, 2] : Fin 3 → Fin S256x36x64.rank)
  bcast_S256x1x64_S256x36x64_0_1_2 : S256x1x64.BroadcastsInDim S256x36x64 (![0, 1, 2] : Fin 3 → Fin S256x36x64.rank)
  bcast_S_S256x36x64 : S_.BroadcastsInDim S256x36x64 (![] : Fin 0 → Fin S256x36x64.rank)
  reducesTo_S256x36x64_S256x64_d1 : S256x36x64.ReducesTo [1] S256x64
  bcast_S_S256x64 : S_.BroadcastsInDim S256x64 (![] : Fin 0 → Fin S256x64.rank)
  dot_S256x36x1024_S256x64x1024_S256x36x64_2_2_1_1_0_0_wf : DotDims.WF S256x36x1024 S256x64x1024 S256x36x64 [2] [2] [1] [1] [0] [0]
  dot_S256x36x64_S256x36x1024_S256x64x1024_1_1_2_2_0_0_wf : DotDims.WF S256x36x64 S256x36x1024 S256x64x1024 [1] [1] [2] [2] [0] [0]

variable [Facts₀]

def dot_S256x36x1024_S256x64x1024_S256x36x64_2_2_1_1_0_0 : DotDims S256x36x1024 S256x64x1024 S256x36x64 where
  lhsContracting := [2]
  rhsContracting := [2]
  lhsNonContracting := [1]
  rhsNonContracting := [1]
  lhsBatch := [0]
  rhsBatch := [0]
  wf := dot_S256x36x1024_S256x64x1024_S256x36x64_2_2_1_1_0_0_wf
def dot_S256x36x64_S256x36x1024_S256x64x1024_1_1_2_2_0_0 : DotDims S256x36x64 S256x36x1024 S256x64x1024 where
  lhsContracting := [1]
  rhsContracting := [1]
  lhsNonContracting := [2]
  rhsNonContracting := [2]
  lhsBatch := [0]
  rhsBatch := [0]
  wf := dot_S256x36x64_S256x36x1024_S256x64x1024_1_1_2_2_0_0_wf

class Facts : Prop extends Facts₀ where

variable [Facts]
-- ==== Proof.Attend.lean ====
/-
  Cosine-similarity attention of ONE batch element, as a function of its two slices.

  For image regions `I r` (r < 36) and caption words `C t` (t < 64), each a vector of 1024 extended reals:
    dots r t   = Σ_k I r k · C t k
    score r t  = dots r t / max (√(Σ_k (I r k)²) · √(Σ_k (C t k)²)) ε        (the cosine of region r and word t)
    top t      = the maximum over r of score r t, folded from −∞
    weight r t = exp (score r t − top t)
    mass t     = Σ_r weight r t
    attn r t   = weight r t / mass t                                          (a softmax over the REGIONS, word by word)
    att t d    = Σ_r attn r t · I r d                                         (each word's attended image vector)
  ε and −∞ stay the two f32 words the programs print; neither is ever evaluated. The whole computation of a batch is
  this function applied to each batch element's slices, since no operation mixes two batch elements.
-/
import Idealize.ShloMosaic.PureOps.Ideal
import Idealize.ShloMosaic.Lib.ValueIdx

noncomputable section

namespace Cert.Attend

open Idealize.ShloMosaic

/-- The floor under the product of the two norms. -/
abbrev eps : EReal := Ideal.ofBits .f32 0x322BCC77#32
/-- Where the maximum over the regions starts. -/
abbrev ninf : EReal := Ideal.ofBits .f32 0xFF800000#32

variable (I : Fin 36 → Fin 1024 → EReal) (C : Fin 64 → Fin 1024 → EReal)

/-- The inner product of region `r` and word `t`. -/
def dots (r : Fin 36) (t : Fin 64) : EReal := ∑ k : Fin 1024, I r k * C t k

/-- The sum of a vector's squares. -/
def sumsq (X : Fin 1024 → EReal) : EReal := ∑ k : Fin 1024, X k * X k

/-- The cosine of region `r` and word `t`, the product of the norms floored at `eps`. -/
def score (r : Fin 36) (t : Fin 64) : EReal :=
  Ideal.div (dots I C r t) (max (Ideal.sqrt (sumsq (I r)) * Ideal.sqrt (sumsq (C t))) eps)

/-- Word `t`'s largest score over the regions. -/
def top (t : Fin 64) : EReal := (Finset.univ : Finset (Fin 36)).fold max ninf fun r => score I C r t

/-- The shifted exponential. -/
def weight (r : Fin 36) (t : Fin 64) : EReal := Ideal.exp (score I C r t - top I C t)

/-- Word `t`'s normaliser. -/
def mass (t : Fin 64) : EReal := ∑ r : Fin 36, weight I C r t

/-- The softmax over the regions. -/
def attn (r : Fin 36) (t : Fin 64) : EReal := Ideal.div (weight I C r t) (mass I C t)

/-- Word `t`'s attended image vector at feature `d`. -/
def att (t : Fin 64) (d : Fin 1024) : EReal := ∑ r : Fin 36, attn I C r t * I r d

/-- A maximum folded from `b` is at least `b`, so taking its maximum with `b` once more changes nothing: this is the
    one operation by which the two programs differ (one of them floors the regions' maximum at −∞ a second time). -/
theorem max_ninf_top (t : Fin 64) : max ninf (top I C t) = top I C t :=
  max_eq_right ((Finset.le_fold_max _).2 (Or.inl le_rfl))

end Cert.Attend

end
-- ==== Proof.AttendAll.lean ====
/-
  The whole result as ONE function of the two argument arrays: at (b, t, d), batch element `b`'s attention
  (`Cert.Attend.att`) of the slices `img[b]` and `cap[b]`, at word `t` and feature `d`. Both programs end with this array.
-/
import proofs.«419483_j33586644254987_3_alg».proof.Proof.Attend

noncomputable section

namespace Cert.Attend

open Idealize.ShloMosaic Idealize.ShloMosaic.ValueIdx

/-- The attended image vectors of all 256 batch elements. -/
def whole (img : (⟨3, ![256, 36, 1024]⟩ : Shape).Idx → EReal) (cap : (⟨3, ![256, 64, 1024]⟩ : Shape).Idx → EReal) :
    (⟨3, ![256, 64, 1024]⟩ : Shape).Idx → EReal :=
  fun i => att (fun r k => img (ix3 (n0 := 256) (i 0) r k)) (fun t k => cap (ix3 (n0 := 256) (i 0) t k)) (i 1) (i 2)

/-- At explicit coordinates. -/
theorem whole_apply (img : (⟨3, ![256, 36, 1024]⟩ : Shape).Idx → EReal) (cap : (⟨3, ![256, 64, 1024]⟩ : Shape).Idx → EReal)
    (b : Fin 256) (t : Fin 64) (d : Fin 1024) :
    whole img cap (ix3 b t d) = att (fun r k => img (ix3 b r k)) (fun t' k => cap (ix3 b t' k)) t d := rfl

end Cert.Attend

end
-- ==== Proof.RefAttend.lean ====
/-
  The reference, stage by stage, is the per-batch attention `Cert.Attend.att` of the batch element's slices.

  Every host operation of the reference is read at an index (b, r, t), (b, t) or (b, t, d): the two contractions as
  sums over the contracted coordinate, the sums of squares and the softmax's normaliser as sums from the zero word
  (which is the real 0), the regions' maximum as a fold of `max` from the −∞ word. Each stage at batch `b` touches only
  `img[b]` and `cap[b]`, so each is the matching stage of `Attend` on the slices `regions b`, `words b`. The reference
  takes the maximum with −∞ a second time after its reduce; a maximum folded from −∞ already dominates it
  (`Attend.max_ninf_top`).
-/
import proofs.«419483_j33586644254987_3_alg».proof.Proof.Gen.ReferenceIdeal.Read
import proofs.«419483_j33586644254987_3_alg».proof.Proof.Attend

noncomputable section

namespace Cert.ReferenceIdeal.RefAttend

open Cert.ReferenceIdeal Cert.ReferenceIdeal.Gen Cert.ReferenceIdeal.Read Cert.Attend
open Idealize.ShloMosaic Idealize.ShloMosaic.ValueIdx

variable (x0 : (⟨S256x36x1024, .f32⟩ : BufTy).Contents (Elt Ideal)) (x1 : (⟨S256x64x1024, .f32⟩ : BufTy).Contents (Elt Ideal))

/-- Batch element `b`'s image regions. -/
def regions (b : Fin 256) : Fin 36 → Fin 1024 → EReal := fun r k => x0 (ix3 b r k)
/-- Batch element `b`'s caption words. -/
def words (b : Fin 256) : Fin 64 → Fin 1024 → EReal := fun t k => x1 (ix3 b t k)

variable (b : Fin 256) (r : Fin 36) (t : Fin 64) (d k : Fin 1024)

/-! ## Where each stage reads its operands -/

theorem lidx0 : lidx_main_v0 (ix3 b r t) k = ix3 b r k :=
  funext fun a => match a with | ⟨0, _⟩ => rfl | ⟨1, _⟩ => rfl | ⟨2, _⟩ => rfl
theorem ridx0 : ridx_main_v0 (ix3 b r t) k = ix3 b t k :=
  funext fun a => match a with | ⟨0, _⟩ => rfl | ⟨1, _⟩ => rfl | ⟨2, _⟩ => rfl
theorem idxI : idx_main_call0_v1 (ix2 b r) k = ix3 b r k :=
  funext fun a => match a with | ⟨0, _⟩ => rfl | ⟨1, _⟩ => rfl | ⟨2, _⟩ => rfl
theorem idxC : idx_main_call1_v1 (ix2 b t) k = ix3 b t k :=
  funext fun a => match a with | ⟨0, _⟩ => rfl | ⟨1, _⟩ => rfl | ⟨2, _⟩ => rfl
theorem idxNormI : idx_main_v3 (idx_main_v5 (ix3 b r t)) = ix2 b r :=
  funext fun a => match a with | ⟨0, _⟩ => rfl | ⟨1, _⟩ => rfl
theorem idxNormC : idx_main_v4 (idx_main_v6 (ix3 b r t)) = ix2 b t :=
  funext fun a => match a with | ⟨0, _⟩ => rfl | ⟨1, _⟩ => rfl
theorem idxTop : idx_main_v14 (idx_main_v15 (ix3 b r t)) = ix2 b t :=
  funext fun a => match a with | ⟨0, _⟩ => rfl | ⟨1, _⟩ => rfl
theorem idxMassSum : idx_main_v18 (ix2 b t) r = ix3 b r t :=
  funext fun a => match a with | ⟨0, _⟩ => rfl | ⟨1, _⟩ => rfl | ⟨2, _⟩ => rfl
theorem idxMass : idx_main_v19 (idx_main_v20 (ix3 b r t)) = ix2 b t :=
  funext fun a => match a with | ⟨0, _⟩ => rfl | ⟨1, _⟩ => rfl
theorem lidxOut : lidx_main_v22 (ix3 b t d) r = ix3 b r t :=
  funext fun a => match a with | ⟨0, _⟩ => rfl | ⟨1, _⟩ => rfl | ⟨2, _⟩ => rfl
theorem ridxOut : ridx_main_v22 (ix3 b t d) r = ix3 b r d :=
  funext fun a => match a with | ⟨0, _⟩ => rfl | ⟨1, _⟩ => rfl | ⟨2, _⟩ => rfl

/-- The index (b, t) with region `r` put back on axis 1 is (b, r, t). -/
theorem liftRegion (h : S256x36x64.Reduces [1] S256x64) : h.lift (ix2 b t) r = ix3 b r t := by
  funext c; apply Fin.ext
  fin_cases c <;> rfl

/-! ## The stages -/

theorem dots_eq : val_main_v0 (F := Ideal) x0 x1 (ix3 b r t) = dots (regions x0 b) (words x1 b) r t := by
  rw [val_main_v0_apply]
  simp only [lidx0, ridx0]
  rfl

theorem sumsqI_eq : val_main_call0_v1 (F := Ideal) x0 (ix2 b r) = sumsq (regions x0 b r) := by
  rw [val_main_call0_v1_apply]
  simp only [idxI]
  show Ideal.ofBits .f32 0x00000000#32 + _ = _
  rw [Ideal.ofBits_zero_f32, zero_add]
  rfl

theorem sumsqC_eq : val_main_call1_v1 (F := Ideal) x1 (ix2 b t) = sumsq (words x1 b t) := by
  rw [val_main_call1_v1_apply]
  simp only [idxC]
  show Ideal.ofBits .f32 0x00000000#32 + _ = _
  rw [Ideal.ofBits_zero_f32, zero_add]
  rfl

theorem normI_eq : val_main_v5 (F := Ideal) x0 (ix3 b r t) = Ideal.sqrt (sumsq (regions x0 b r)) := by
  rw [val_main_v5_apply, val_main_v3_apply, val_main_v1_apply, idxNormI, sumsqI_eq]
  rfl

theorem normC_eq : val_main_v6 (F := Ideal) x1 (ix3 b r t) = Ideal.sqrt (sumsq (words x1 b t)) := by
  rw [val_main_v6_apply, val_main_v4_apply, val_main_v2_apply, idxNormC, sumsqC_eq]
  rfl

theorem score_eq : val_main_v10 (F := Ideal) x0 x1 (ix3 b r t) = score (regions x0 b) (words x1 b) r t := by
  rw [val_main_v10_apply, val_main_v9_apply, val_main_v7_apply, dots_eq, normI_eq, normC_eq, val_main_v8_apply,
    val_main_cst_apply]
  rfl

theorem top_eq : val_main_v13 (F := Ideal) x0 x1 (ix2 b t) = top (regions x0 b) (words x1 b) t := by
  have h11 : val_main_v11 (F := Ideal) x0 x1 (ix2 b t) = top (regions x0 b) (words x1 b) t := by
    unfold val_main_v11
    rw [Host.reduce_eq_fold_single FloatOps.maximumf _ _ reducesTo_S256x36x64_S256x64_d1
      (by decide : S256x36x64.Reduces [1] S256x64) h_S_]
    unfold top
    refine congrArg (fun f => Finset.fold max ninf f (Finset.univ : Finset (Fin 36))) (funext fun r' => ?_)
    exact (congrArg (val_main_v10 (F := Ideal) x0 x1) (liftRegion b r' t _)).trans (score_eq x0 x1 b r' t)
  rw [val_main_v13_apply, val_main_v12_apply, val_main_cst_1_apply, h11]
  exact max_ninf_top _ _ _

theorem weight_eq : val_main_v17 (F := Ideal) x0 x1 (ix3 b r t) = weight (regions x0 b) (words x1 b) r t := by
  rw [val_main_v17_apply, val_main_v16_apply, score_eq, val_main_v15_apply, val_main_v14_apply, idxTop, top_eq]
  rfl

theorem mass_eq : val_main_v18 (F := Ideal) x0 x1 (ix2 b t) = mass (regions x0 b) (words x1 b) t := by
  rw [val_main_v18_apply]
  show Ideal.ofBits .f32 0x00000000#32 + _ = _
  rw [Ideal.ofBits_zero_f32, zero_add]
  unfold mass
  refine Finset.sum_congr rfl fun r' _ => ?_
  rw [idxMassSum, weight_eq]

theorem attn_eq : val_main_v21 (F := Ideal) x0 x1 (ix3 b r t) = attn (regions x0 b) (words x1 b) r t := by
  rw [val_main_v21_apply, weight_eq, val_main_v20_apply, val_main_v19_apply, idxMass, mass_eq]
  rfl

/-- The reference's result at (b, t, d) is batch element `b`'s attention at (t, d). -/
theorem result_eq : val_main_v22 (F := Ideal) x0 x1 (ix3 b t d) = att (regions x0 b) (words x1 b) t d := by
  rw [val_main_v22_apply]
  unfold att
  refine Finset.sum_congr rfl fun r' _ => ?_
  rw [lidxOut, ridxOut, attn_eq]
  rfl

end Cert.ReferenceIdeal.RefAttend

end
-- ==== Proof.LibKeepdims.lean ====
/-
  Two keepdims broadcasts read at an index, for any extents and any element type.

  A rank-2 array given a unit axis by a shape cast and then broadcast along that axis to rank 3 reads, at (p, q, s), the
  operand at the two coordinates it had: a per-(p, q) value spread over the last axis (`[n, a] → [n, a, 1] → [n, a, c]`),
  and a per-(p, s) value spread over the middle axis (`[n, c] → [n, 1, c] → [n, a, c]`). The shape cast keeps the
  row-major position and the broadcast reads coordinate 0 on the unit axis.
-/
import Idealize.ShloMosaic.Lib.Pipeline.Value
import Idealize.ShloMosaic.Lib.ValueIdx

namespace Cert.Keepdims

open Idealize.ShloMosaic Idealize.ShloMosaic.ValueIdx

variable {α : Type}

/-- `[n, a] → [n, a, 1] → [n, a, c]`: the value at (p, q), whatever the last coordinate. -/
theorem spreadLast_apply {n a c : ℕ} (x : (⟨2, ![n, a]⟩ : Shape).Idx → α)
    (h1 : (⟨2, ![n, a]⟩ : Shape).ShapeCasts ⟨3, ![n, a, 1]⟩) (h2 : (⟨3, ![n, a, 1]⟩ : Shape).Broadcasts ⟨3, ![n, a, c]⟩)
    (p : Fin n) (q : Fin a) (s : Fin c) :
    broadcastTo ⟨3, ![n, a, c]⟩ (shapeCast ⟨3, ![n, a, 1]⟩ x h1) h2 (ix3 p q s) = x (ix2 p q) := by
  refine (broadcastTo_apply _ h2 (ix3 p q s) (ix3 p q (0 : Fin 1)) fun ax => ?_).trans ?_
  · match ax with
    | ⟨0, _⟩ =>
      show p.val = if n = 1 then 0 else p.val
      split
      · have := p.isLt; omega
      · rfl
    | ⟨1, _⟩ =>
      show q.val = if a = 1 then 0 else q.val
      split
      · have := q.isLt; omega
      · rfl
    | ⟨2, _⟩ => rfl
  · exact shapeCast_apply x h1 _ _ (by
      rw [Shape.rowMajor_val_two, Shape.rowMajor_val_three]
      show p.val * a + q.val = (p.val * a + q.val) * 1 + 0
      rw [Nat.mul_one, Nat.add_zero])

/-- `[n, c] → [n, 1, c] → [n, a, c]`: the value at (p, s), whatever the middle coordinate. -/
theorem spreadMid_apply {n a c : ℕ} (x : (⟨2, ![n, c]⟩ : Shape).Idx → α)
    (h1 : (⟨2, ![n, c]⟩ : Shape).ShapeCasts ⟨3, ![n, 1, c]⟩) (h2 : (⟨3, ![n, 1, c]⟩ : Shape).Broadcasts ⟨3, ![n, a, c]⟩)
    (p : Fin n) (q : Fin a) (s : Fin c) :
    broadcastTo ⟨3, ![n, a, c]⟩ (shapeCast ⟨3, ![n, 1, c]⟩ x h1) h2 (ix3 p q s) = x (ix2 p s) := by
  refine (broadcastTo_apply _ h2 (ix3 p q s) (ix3 p (0 : Fin 1) s) fun ax => ?_).trans ?_
  · match ax with
    | ⟨0, _⟩ =>
      show p.val = if n = 1 then 0 else p.val
      split
      · have := p.isLt; omega
      · rfl
    | ⟨1, _⟩ => rfl
    | ⟨2, _⟩ =>
      show s.val = if c = 1 then 0 else s.val
      split
      · have := s.isLt; omega
      · rfl
  · exact shapeCast_apply x h1 _ _ (by
      rw [Shape.rowMajor_val_two, Shape.rowMajor_val_three]
      show p.val * c + s.val = (p.val * 1 + 0) * c + s.val
      rw [Nat.mul_one, Nat.add_zero])

end Cert.Keepdims
-- ==== Proof.KerAttend.lean ====
/-
  The kernel body's payload, on one staged block of 32 batch elements, is the per-batch attention `Cert.Attend.att`
  of each batch element's slices of the two loaded blocks.

  The payload is cut into its stages — the inner products (a matrix product into a zero accumulator: a sum over the
  feature axis), the two sums of squares (lane sums over the feature axis), the floored product of the norms (each
  norm given a unit axis and spread over the other's axis), the score, its maximum over the regions (a fold of `max`
  from the −∞ word), the shifted exponential, its sum over the regions, the quotient, and the second matrix product
  (a sum over the regions) — and each stage, read at explicit coordinates, is the matching stage of `Attend` on the
  slices `regions b`, `words b` of the block.
-/
import proofs.«419483_j33586644254987_3_alg».proof.Proof.Gen.KernelIdeal.Skeleton
import proofs.«419483_j33586644254987_3_alg».proof.Proof.Attend
import proofs.«419483_j33586644254987_3_alg».proof.Proof.LibKeepdims
import Idealize.ShloMosaic.Lib.Pipeline.Value
import Idealize.ShloMosaic.Lib.ValueIdx
import Idealize.ShloMosaic.PureOps.Ideal.Laws

noncomputable section

namespace Cert.KernelIdeal.KerAttend

open Cert.KernelIdeal Cert.KernelIdeal.Gen Cert.Attend Cert.Keepdims
open Idealize.ShloMosaic Idealize.ShloMosaic.ValueIdx

variable (v0 : FVec Ideal S32x36x1024 .f32) (v1 : FVec Ideal S32x64x1024 .f32)

/-- Batch element `b` of the block: its image regions. -/
def regions (b : Fin 32) : Fin 36 → Fin 1024 → EReal := fun r k => v0 (ix3 b r k)
/-- Batch element `b` of the block: its caption words. -/
def words (b : Fin 32) : Fin 64 → Fin 1024 → EReal := fun t k => v1 (ix3 b t k)

/-! ## The payload's stages -/

def kDots : FVec Ideal S32x36x64 .f32 :=
  matmul (φ₁ := .f32) (φ₂ := .f32) dot_S32x36x1024_S32x64x1024_S32x36x64_2_2_1_1_0_0 none v0 v1 (constant S32x36x64 .f32 0x00000000#32)
def kSumsqI : FVec Ideal S32x36 .f32 :=
  multiReduction .add [2] S32x36 (mulf v0 v0) 0x00000000#32 reduces_S32x36x1024_S32x36 (.inl rfl) rfl
def kSumsqC : FVec Ideal S32x64 .f32 :=
  multiReduction .add [2] S32x64 (mulf v1 v1) 0x00000000#32 reduces_S32x64x1024_S32x64 (.inl rfl) rfl
def kDen : FVec Ideal S32x36x64 .f32 :=
  maximumf
    (mulf (broadcastTo S32x36x64 (shapeCast S32x36x1 (sqrt (kSumsqI v0)) shapeCasts_S32x36_S32x36x1) broadcasts_S32x36x1_S32x36x64)
      (broadcastTo S32x36x64 (shapeCast S32x1x64 (sqrt (kSumsqC v1)) shapeCasts_S32x64_S32x1x64) broadcasts_S32x1x64_S32x36x64))
    (broadcast S32x36x64 (Scalar.ofBits .f32 0x322BCC77#32))
def kScore : FVec Ideal S32x36x64 .f32 := divf (kDots v0 v1) (kDen v0 v1)
def kTop : FVec Ideal S32x64 .f32 :=
  multiReduction .maximumf [1] S32x64 (kScore v0 v1) 0xFF800000#32 reduces_S32x36x64_S32x64 (.inl rfl) rfl
def kWeight : FVec Ideal S32x36x64 .f32 :=
  exp (subf (kScore v0 v1)
    (broadcastTo S32x36x64 (shapeCast S32x1x64 (kTop v0 v1) shapeCasts_S32x64_S32x1x64) broadcasts_S32x1x64_S32x36x64))
def kMass : FVec Ideal S32x64 .f32 :=
  multiReduction .add [1] S32x64 (kWeight v0 v1) 0x00000000#32 reduces_S32x36x64_S32x64 (.inl rfl) rfl
def kAttn : FVec Ideal S32x36x64 .f32 :=
  divf (kWeight v0 v1)
    (broadcastTo S32x36x64 (shapeCast S32x1x64 (kMass v0 v1) shapeCasts_S32x64_S32x1x64) broadcasts_S32x1x64_S32x36x64)

/-- The payload is the second matrix product over these stages. -/
theorem pay_stages : k0_pay1 (F := Ideal) v0 v1
    = matmul (φ₁ := .f32) (φ₂ := .f32) dot_S32x36x64_S32x36x1024_S32x64x1024_1_1_2_2_0_0 none (kAttn v0 v1) v0 (constant S32x64x1024 .f32 0x00000000#32) := rfl

variable (b : Fin 32) (r : Fin 36) (t : Fin 64) (d k : Fin 1024)

/-! ## Where the two matrix products read their operands -/

theorem lhsA_0 (i : S32x36x64.Idx) (q : dot_S32x36x1024_S32x64x1024_S32x36x64_2_2_1_1_0_0.contr.Idx) : (dot_S32x36x1024_S32x64x1024_S32x36x64_2_2_1_1_0_0.lhsIdx i q 0).val = (i 0).val := by
  unfold DotDims.lhsIdx
  rw [dif_pos (show (0 : Fin S32x36x1024.rank) ∈ dot_S32x36x1024_S32x64x1024_S32x36x64_2_2_1_1_0_0.lhsBatch by decide)]
  rfl
theorem lhsA_1 (i : S32x36x64.Idx) (q : dot_S32x36x1024_S32x64x1024_S32x36x64_2_2_1_1_0_0.contr.Idx) : (dot_S32x36x1024_S32x64x1024_S32x36x64_2_2_1_1_0_0.lhsIdx i q 1).val = (i 1).val := by
  unfold DotDims.lhsIdx
  rw [dif_neg (show ¬(1 : Fin S32x36x1024.rank) ∈ dot_S32x36x1024_S32x64x1024_S32x36x64_2_2_1_1_0_0.lhsBatch by decide), dif_pos (show (1 : Fin S32x36x1024.rank) ∈ dot_S32x36x1024_S32x64x1024_S32x36x64_2_2_1_1_0_0.lhsNonContracting by decide)]
  rfl
theorem lhsA_2 (i : S32x36x64.Idx) (q : dot_S32x36x1024_S32x64x1024_S32x36x64_2_2_1_1_0_0.contr.Idx) : (dot_S32x36x1024_S32x64x1024_S32x36x64_2_2_1_1_0_0.lhsIdx i q 2).val = (q ⟨0, by decide⟩).val :=
  dot_S32x36x1024_S32x64x1024_S32x36x64_2_2_1_1_0_0.lhsIdx_val_of_single rfl i q
theorem rhsA_0 (i : S32x36x64.Idx) (q : dot_S32x36x1024_S32x64x1024_S32x36x64_2_2_1_1_0_0.contr.Idx) : (dot_S32x36x1024_S32x64x1024_S32x36x64_2_2_1_1_0_0.rhsIdx i q 0).val = (i 0).val := by
  unfold DotDims.rhsIdx
  rw [dif_pos (show (0 : Fin S32x64x1024.rank) ∈ dot_S32x36x1024_S32x64x1024_S32x36x64_2_2_1_1_0_0.rhsBatch by decide)]
  rfl
theorem rhsA_1 (i : S32x36x64.Idx) (q : dot_S32x36x1024_S32x64x1024_S32x36x64_2_2_1_1_0_0.contr.Idx) : (dot_S32x36x1024_S32x64x1024_S32x36x64_2_2_1_1_0_0.rhsIdx i q 1).val = (i 2).val := by
  unfold DotDims.rhsIdx
  rw [dif_neg (show ¬(1 : Fin S32x64x1024.rank) ∈ dot_S32x36x1024_S32x64x1024_S32x36x64_2_2_1_1_0_0.rhsBatch by decide), dif_pos (show (1 : Fin S32x64x1024.rank) ∈ dot_S32x36x1024_S32x64x1024_S32x36x64_2_2_1_1_0_0.rhsNonContracting by decide)]
  rfl
theorem rhsA_2 (i : S32x36x64.Idx) (q : dot_S32x36x1024_S32x64x1024_S32x36x64_2_2_1_1_0_0.contr.Idx) : (dot_S32x36x1024_S32x64x1024_S32x36x64_2_2_1_1_0_0.rhsIdx i q 2).val = (q ⟨0, by decide⟩).val :=
  dot_S32x36x1024_S32x64x1024_S32x36x64_2_2_1_1_0_0.rhsIdx_val_of_single rfl i q

theorem lhsB_0 (i : S32x64x1024.Idx) (q : dot_S32x36x64_S32x36x1024_S32x64x1024_1_1_2_2_0_0.contr.Idx) : (dot_S32x36x64_S32x36x1024_S32x64x1024_1_1_2_2_0_0.lhsIdx i q 0).val = (i 0).val := by
  unfold DotDims.lhsIdx
  rw [dif_pos (show (0 : Fin S32x36x64.rank) ∈ dot_S32x36x64_S32x36x1024_S32x64x1024_1_1_2_2_0_0.lhsBatch by decide)]
  rfl
theorem lhsB_1 (i : S32x64x1024.Idx) (q : dot_S32x36x64_S32x36x1024_S32x64x1024_1_1_2_2_0_0.contr.Idx) : (dot_S32x36x64_S32x36x1024_S32x64x1024_1_1_2_2_0_0.lhsIdx i q 1).val = (q ⟨0, by decide⟩).val :=
  dot_S32x36x64_S32x36x1024_S32x64x1024_1_1_2_2_0_0.lhsIdx_val_of_single rfl i q
theorem lhsB_2 (i : S32x64x1024.Idx) (q : dot_S32x36x64_S32x36x1024_S32x64x1024_1_1_2_2_0_0.contr.Idx) : (dot_S32x36x64_S32x36x1024_S32x64x1024_1_1_2_2_0_0.lhsIdx i q 2).val = (i 1).val := by
  unfold DotDims.lhsIdx
  rw [dif_neg (show ¬(2 : Fin S32x36x64.rank) ∈ dot_S32x36x64_S32x36x1024_S32x64x1024_1_1_2_2_0_0.lhsBatch by decide), dif_pos (show (2 : Fin S32x36x64.rank) ∈ dot_S32x36x64_S32x36x1024_S32x64x1024_1_1_2_2_0_0.lhsNonContracting by decide)]
  rfl
theorem rhsB_0 (i : S32x64x1024.Idx) (q : dot_S32x36x64_S32x36x1024_S32x64x1024_1_1_2_2_0_0.contr.Idx) : (dot_S32x36x64_S32x36x1024_S32x64x1024_1_1_2_2_0_0.rhsIdx i q 0).val = (i 0).val := by
  unfold DotDims.rhsIdx
  rw [dif_pos (show (0 : Fin S32x36x1024.rank) ∈ dot_S32x36x64_S32x36x1024_S32x64x1024_1_1_2_2_0_0.rhsBatch by decide)]
  rfl
theorem rhsB_1 (i : S32x64x1024.Idx) (q : dot_S32x36x64_S32x36x1024_S32x64x1024_1_1_2_2_0_0.contr.Idx) : (dot_S32x36x64_S32x36x1024_S32x64x1024_1_1_2_2_0_0.rhsIdx i q 1).val = (q ⟨0, by decide⟩).val :=
  dot_S32x36x64_S32x36x1024_S32x64x1024_1_1_2_2_0_0.rhsIdx_val_of_single rfl i q
theorem rhsB_2 (i : S32x64x1024.Idx) (q : dot_S32x36x64_S32x36x1024_S32x64x1024_1_1_2_2_0_0.contr.Idx) : (dot_S32x36x64_S32x36x1024_S32x64x1024_1_1_2_2_0_0.rhsIdx i q 2).val = (i 2).val := by
  unfold DotDims.rhsIdx
  rw [dif_neg (show ¬(2 : Fin S32x36x1024.rank) ∈ dot_S32x36x64_S32x36x1024_S32x64x1024_1_1_2_2_0_0.rhsBatch by decide), dif_pos (show (2 : Fin S32x36x1024.rank) ∈ dot_S32x36x64_S32x36x1024_S32x64x1024_1_1_2_2_0_0.rhsNonContracting by decide)]
  rfl

/-! ## Reduced indices with the reduced coordinate put back -/

theorem liftFeatI (h : S32x36x1024.Reduces [2] S32x36) : h.lift (ix2 b r) k = ix3 b r k := by
  funext c; apply Fin.ext
  fin_cases c <;> rfl
theorem liftFeatC (h : S32x64x1024.Reduces [2] S32x64) : h.lift (ix2 b t) k = ix3 b t k := by
  funext c; apply Fin.ext
  fin_cases c <;> rfl
theorem liftRegion (h : S32x36x64.Reduces [1] S32x64) : h.lift (ix2 b t) r = ix3 b r t := by
  funext c; apply Fin.ext
  fin_cases c <;> rfl

/-! ## The stages at an index -/

theorem kDots_eq : kDots v0 v1 (ix3 b r t) = dots (regions v0 b) (words v1 b) r t := by
  unfold kDots
  simp only [matmul]
  rw [Ideal.matmul_constant_zero_apply, ← Equiv.sum_comp (contrEquiv1 dot_S32x36x1024_S32x64x1024_S32x36x64_2_2_1_1_0_0 1024 rfl rfl).symm]
  unfold dots
  refine Finset.sum_congr rfl fun k' _ => ?_
  have hk := contrEquiv1_symm_val dot_S32x36x1024_S32x64x1024_S32x36x64_2_2_1_1_0_0 1024 rfl rfl k'
  have el : dot_S32x36x1024_S32x64x1024_S32x36x64_2_2_1_1_0_0.lhsIdx (ix3 b r t) ((contrEquiv1 dot_S32x36x1024_S32x64x1024_S32x36x64_2_2_1_1_0_0 1024 rfl rfl).symm k') = ix3 b r k' := funext fun a => Fin.ext (by
    match a with
    | ⟨0, _⟩ => exact lhsA_0 _ _
    | ⟨1, _⟩ => exact lhsA_1 _ _
    | ⟨2, _⟩ => exact (lhsA_2 _ _).trans hk)
  have er : dot_S32x36x1024_S32x64x1024_S32x36x64_2_2_1_1_0_0.rhsIdx (ix3 b r t) ((contrEquiv1 dot_S32x36x1024_S32x64x1024_S32x36x64_2_2_1_1_0_0 1024 rfl rfl).symm k') = ix3 b t k' := funext fun a => Fin.ext (by
    match a with
    | ⟨0, _⟩ => exact rhsA_0 _ _
    | ⟨1, _⟩ => exact rhsA_1 _ _
    | ⟨2, _⟩ => exact (rhsA_2 _ _).trans hk)
  rw [el, er]
  rfl

theorem kSumsqI_eq : kSumsqI v0 (ix2 b r) = sumsq (regions v0 b r) := by
  unfold kSumsqI
  refine (Ideal.multiReduction_add_single (φ := .f32) (mulf v0 v0) 0x00000000#32 reduces_S32x36x1024_S32x36 (.inl rfl) rfl (ix2 b r)).trans ?_
  unfold sumsq
  refine Finset.sum_congr rfl fun k' _ => ?_
  exact congrArg (fun i => v0 i * v0 i) (liftFeatI b r k' _)

theorem kSumsqC_eq : kSumsqC v1 (ix2 b t) = sumsq (words v1 b t) := by
  unfold kSumsqC
  refine (Ideal.multiReduction_add_single (φ := .f32) (mulf v1 v1) 0x00000000#32 reduces_S32x64x1024_S32x64 (.inl rfl) rfl (ix2 b t)).trans ?_
  unfold sumsq
  refine Finset.sum_congr rfl fun k' _ => ?_
  exact congrArg (fun i => v1 i * v1 i) (liftFeatC b t k' _)

theorem kDen_eq : kDen v0 v1 (ix3 b r t)
    = max (Ideal.sqrt (sumsq (regions v0 b r)) * Ideal.sqrt (sumsq (words v1 b t))) eps := by
  unfold kDen
  rw [maximumf_apply, mulf_apply, spreadLast_apply, spreadMid_apply]
  show max (Ideal.sqrt (kSumsqI v0 (ix2 b r)) * Ideal.sqrt (kSumsqC v1 (ix2 b t))) eps = _
  rw [kSumsqI_eq, kSumsqC_eq]

theorem kScore_eq : kScore v0 v1 (ix3 b r t) = score (regions v0 b) (words v1 b) r t := by
  unfold kScore
  rw [divf_apply, kDots_eq, kDen_eq]
  rfl

theorem kTop_eq : kTop v0 v1 (ix2 b t) = top (regions v0 b) (words v1 b) t := by
  unfold kTop
  refine (Ideal.multiReduction_maximumf_single (φ := .f32) (kScore v0 v1) 0xFF800000#32 reduces_S32x36x64_S32x64 (.inl rfl) rfl (ix2 b t)).trans ?_
  unfold top
  refine congrArg (fun f => Finset.fold max ninf f (Finset.univ : Finset (Fin 36))) (funext fun r' => ?_)
  exact (congrArg (kScore v0 v1) (liftRegion b r' t _)).trans (kScore_eq v0 v1 b r' t)

theorem kWeight_eq : kWeight v0 v1 (ix3 b r t) = weight (regions v0 b) (words v1 b) r t := by
  unfold kWeight
  show Ideal.exp (kScore v0 v1 (ix3 b r t)
    - broadcastTo S32x36x64 (shapeCast S32x1x64 (kTop v0 v1) shapeCasts_S32x64_S32x1x64) broadcasts_S32x1x64_S32x36x64 (ix3 b r t)) = _
  rw [spreadMid_apply, kScore_eq, kTop_eq]
  rfl

theorem kMass_eq : kMass v0 v1 (ix2 b t) = mass (regions v0 b) (words v1 b) t := by
  unfold kMass
  refine (Ideal.multiReduction_add_single (φ := .f32) (kWeight v0 v1) 0x00000000#32 reduces_S32x36x64_S32x64 (.inl rfl) rfl (ix2 b t)).trans ?_
  unfold mass
  refine Finset.sum_congr rfl fun r' _ => ?_
  exact (congrArg (kWeight v0 v1) (liftRegion b r' t _)).trans (kWeight_eq v0 v1 b r' t)

theorem kAttn_eq : kAttn v0 v1 (ix3 b r t) = attn (regions v0 b) (words v1 b) r t := by
  unfold kAttn
  rw [divf_apply, spreadMid_apply, kWeight_eq, kMass_eq]
  rfl

/-- The payload at (b, t, d) is batch element `b`'s attention at (t, d). -/
theorem pay_eq : k0_pay1 (F := Ideal) v0 v1 (ix3 b t d) = att (regions v0 b) (words v1 b) t d := by
  rw [pay_stages]
  simp only [matmul]
  rw [Ideal.matmul_constant_zero_apply, ← Equiv.sum_comp (contrEquiv1 dot_S32x36x64_S32x36x1024_S32x64x1024_1_1_2_2_0_0 36 rfl rfl).symm]
  unfold att
  refine Finset.sum_congr rfl fun r' _ => ?_
  have hk := contrEquiv1_symm_val dot_S32x36x64_S32x36x1024_S32x64x1024_1_1_2_2_0_0 36 rfl rfl r'
  have el : dot_S32x36x64_S32x36x1024_S32x64x1024_1_1_2_2_0_0.lhsIdx (ix3 b t d) ((contrEquiv1 dot_S32x36x64_S32x36x1024_S32x64x1024_1_1_2_2_0_0 36 rfl rfl).symm r') = ix3 b r' t := funext fun a => Fin.ext (by
    match a with
    | ⟨0, _⟩ => exact lhsB_0 _ _
    | ⟨1, _⟩ => exact (lhsB_1 _ _).trans hk
    | ⟨2, _⟩ => exact lhsB_2 _ _)
  have er : dot_S32x36x64_S32x36x1024_S32x64x1024_1_1_2_2_0_0.rhsIdx (ix3 b t d) ((contrEquiv1 dot_S32x36x64_S32x36x1024_S32x64x1024_1_1_2_2_0_0 36 rfl rfl).symm r') = ix3 b r' d := funext fun a => Fin.ext (by
    match a with
    | ⟨0, _⟩ => exact rhsB_0 _ _
    | ⟨1, _⟩ => exact (rhsB_1 _ _).trans hk
    | ⟨2, _⟩ => exact rhsB_2 _ _)
  rw [el, er, kAttn_eq]
  rfl

end Cert.KernelIdeal.KerAttend

end
-- ==== Proof.Whole.lean ====
/-
  From the kernel's blocks to the whole result array.

  The grid has 8 points; point `t` stages batch elements 32·t … 32·t + 31 of both arguments (all regions, words and
  features) and writes back the same batch elements of the result. The body's payload on a block is, batch element
  by batch element, the attention of that element's slices (`KerAttend.pay_eq`), and batch element `b'` of block `t`
  is batch element 32·t + b' of the array; so what point `t` writes back is block `t` of the one whole-array function
  `Attend.whole` of the two arguments. Batch element `b` lies in block `b / 32`, so the eight blocks cover the result,
  and the array after the run is `Attend.whole` of the arguments as launched.
-/
import proofs.«419483_j33586644254987_3_alg».proof.Proof.Gen.KernelIdeal.Value
import proofs.«419483_j33586644254987_3_alg».proof.Proof.KerAttend
import proofs.«419483_j33586644254987_3_alg».proof.Proof.AttendAll
import Idealize.ShloMosaic.Lib.Pipeline.Value

noncomputable section

namespace Cert.KernelIdeal.Whole

open Cert.KernelIdeal Cert.KernelIdeal.Gen Cert.KernelIdeal.Value Cert.KernelIdeal.KerAttend Cert.Attend
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- At point `t` every window's block index is (t, 0, 0): decided over the 8 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- ONE POINT, over variables: if the two loaded blocks are batch elements 32·n … 32·n + 31 of the arrays `a0`, `a1`,
    the payload at an index of the block is `whole a0 a1` at the index 32·n further along the batch axis. -/
theorem point_eq (a0 : S256x36x1024.Idx → EReal) (a1 : S256x64x1024.Idx → EReal)
    (v0 : FVec Ideal S32x36x1024 .f32) (v1 : FVec Ideal S32x64x1024 .f32) (n : ℕ) (hn : n < 8)
    (h0 : ∀ (b : Fin 32) (r : Fin 36) (k : Fin 1024),
      v0 (ix3 b r k) = a0 (ix3 (⟨n * 32 + b.val, by have := b.isLt; omega⟩ : Fin 256) r k))
    (h1 : ∀ (b : Fin 32) (t : Fin 64) (k : Fin 1024),
      v1 (ix3 b t k) = a1 (ix3 (⟨n * 32 + b.val, by have := b.isLt; omega⟩ : Fin 256) t k))
    (j : S32x64x1024.Idx) (i : S256x64x1024.Idx)
    (hi0 : (i 0).val = n * 32 + (j 0).val) (hi1 : (i 1).val = (j 1).val) (hi2 : (i 2).val = (j 2).val) :
    k0_pay1 (F := Ideal) v0 v1 j = whole a0 a1 i := by
  obtain ⟨b, t, d, rfl⟩ : ∃ (b : Fin 32) (t : Fin 64) (d : Fin 1024), j = ix3 b t d := ⟨j 0, j 1, j 2, eq_ix3 j⟩
  have hi : i = ix3 (⟨n * 32 + b.val, by have := b.isLt; omega⟩ : Fin 256) t d :=
    funext fun a => Fin.ext (by
      match a with
      | ⟨0, _⟩ => exact hi0
      | ⟨1, _⟩ => exact hi1
      | ⟨2, _⟩ => exact hi2)
  have e0 : regions v0 b = fun r k => a0 (ix3 (⟨n * 32 + b.val, by have := b.isLt; omega⟩ : Fin 256) r k) :=
    funext fun r => funext fun k => h0 b r k
  have e1 : words v1 b = fun t' k => a1 (ix3 (⟨n * 32 + b.val, by have := b.isLt; omega⟩ : Fin 256) t' k) :=
    funext fun t' => funext fun k => h1 b t' k
  rw [hi, pay_eq, whole_apply, e0, e1]

/-- WHAT POINT `t` WRITES BACK is block `t` of `whole` of the argument arrays as the region finds them. -/
theorem flushed_eq (c : Dev nD) (t : Fin cfg0.N) :
    (dats m 0 c).flushed 2 t
      = ((cfg0.win 2).blk t).view.read (Elt Ideal) (whole (V m c main_arg0) (V m c main_arg1)) := by
  rw [flushed2]
  unfold out0_2
  rw [View.canon_unit_zero hz]
  simp only [View.ld_unit_zero (S := S32x36x1024) hz, View.ld_unit_zero (S := S32x64x1024) hz]
  obtain ⟨a00, a01, a02, a10, a11, a12, a20, a21, a22⟩ := idx_facts t
  have ht : t.val < 8 := Nat.lt_of_lt_of_eq t.isLt N_0
  funext j
  refine point_eq (V m c main_arg0) (V m c main_arg1) (iblk m c 0 t) (iblk m c 1 t) t.val ht ?_ ?_ j
    (((cfg0.win 2).blk t).view.emb j) ?_ ?_ ?_
  · intro b r k
    show V m c main_arg0 (((cfg0.win 0).blk t).view.emb (ix3 b r k)) = _
    refine congrArg (V m c main_arg0) (funext fun a => Fin.ext ?_)
    match a with
    | ⟨0, _⟩ => show win0_0.index t (0 : Fin 3) * 32 + 1 * b.val = t.val * 32 + b.val; rw [a00]; omega
    | ⟨1, _⟩ => show win0_0.index t (1 : Fin 3) * 36 + 1 * r.val = r.val; rw [a01]; omega
    | ⟨2, _⟩ => show win0_0.index t (2 : Fin 3) * 1024 + 1 * k.val = k.val; rw [a02]; omega
  · intro b w k
    show V m c main_arg1 (((cfg0.win 1).blk t).view.emb (ix3 b w k)) = _
    refine congrArg (V m c main_arg1) (funext fun a => Fin.ext ?_)
    match a with
    | ⟨0, _⟩ => show win0_1.index t (0 : Fin 3) * 32 + 1 * b.val = t.val * 32 + b.val; rw [a10]; omega
    | ⟨1, _⟩ => show win0_1.index t (1 : Fin 3) * 64 + 1 * w.val = w.val; rw [a11]; omega
    | ⟨2, _⟩ => show win0_1.index t (2 : Fin 3) * 1024 + 1 * k.val = k.val; rw [a12]; omega
  · show win0_2.index t (0 : Fin 3) * 32 + 1 * (j 0).val = t.val * 32 + (j 0).val; rw [a20]; omega
  · show win0_2.index t (1 : Fin 3) * 64 + 1 * (j 1).val = (j 1).val; rw [a21]; omega
  · show win0_2.index t (2 : Fin 3) * 1024 + 1 * (j 2).val = (j 2).val; rw [a22]; omega

/-- An index of the result is in point `t`'s block iff each coordinate is in the block's range on its axis. -/
theorem mem_blk (t : Fin cfg0.N) (i : S256x64x1024.Idx) :
    i ∈ ((cfg0.win 2).blk t).view.set ↔ ∀ a : Fin 3, win0_2.index t a * S32x64x1024.size a ≤ (i a).val
      ∧ (i a).val < win0_2.index t a * S32x64x1024.size a + S32x64x1024.size a := by
  show i ∈ ((View.whole main_v0).slice (win0_2.rect t)).set ↔ _
  rw [View.set_slice_whole, Rect.mem_set_unit]
  exact Iff.rfl

/-- Batch element `b` lies in block `b / 32`: the eight blocks cover the result. -/
theorem cover (i : S256x64x1024.Idx) :
    ∃ t : Fin cfg0.N, (cfg0.win 2).flush t = true ∧ i ∈ ((cfg0.win 2).blk t).view.set := by
  have hi0 : (i 0).val < 256 := (i 0).isLt
  have hi1 : (i 1).val < 64 := (i 1).isLt
  have hi2 : (i 2).val < 1024 := (i 2).isLt
  obtain ⟨t, ht⟩ : ∃ t : Fin cfg0.N, t.val = (i 0).val / 32 :=
    ⟨⟨(i 0).val / 32, by show (i 0).val / 32 < grid0.N; rw [N_0]; omega⟩, rfl⟩
  obtain ⟨-, -, -, -, -, -, a20, a21, a22⟩ := idx_facts t
  refine ⟨t, flush0_2 t, ?_⟩
  rw [mem_blk]
  intro a
  match a with
  | ⟨0, _⟩ =>
    show win0_2.index t (0 : Fin 3) * 32 ≤ (i 0).val ∧ (i 0).val < win0_2.index t (0 : Fin 3) * 32 + 32
    rw [a20, ht]; omega
  | ⟨1, _⟩ =>
    show win0_2.index t (1 : Fin 3) * 64 ≤ (i 1).val ∧ (i 1).val < win0_2.index t (1 : Fin 3) * 64 + 64
    rw [a21]; omega
  | ⟨2, _⟩ =>
    show win0_2.index t (2 : Fin 3) * 1024 ≤ (i 2).val ∧ (i 2).val < win0_2.index t (2 : Fin 3) * 1024 + 1024
    rw [a22]; omega

/-- THE RESULT ARRAY after the run is `whole` of the argument arrays. -/
theorem final (c : Dev nD) : (dats m 0 c).arrAt 2 cfg0.N = whole (V m c main_arg0) (V m c main_arg1) :=
  (dats m 0 c).arrAt_eq_of_cover 2 (whole (V m c main_arg0) (V m c main_arg1)) (fun t _ => flushed_eq m c t) cover

/-- The kernel's run, read: the result at `whole` of the arguments as launched, the arguments unchanged. -/
theorem run : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  Cosine-similarity attention of image regions to caption words, batched: for each of 256 batch elements, the
  cosine of every region (36) and word (64) vector over 1024 features, the product of the norms floored at ε; a
  softmax of those scores over the REGIONS, word by word; and each word's weighted sum of the region vectors.

  The kernel computes it on a grid of 8 points, each on a block of 32 batch elements; the reference on the whole
  arrays at once. No operation mixes two batch elements, so both are one per-batch function (`Attend.att`) applied to
  every batch element's slices — the array `Attend.whole`. The kernel's side: its payload on a block is `att` of each
  element's slices (`KerAttend`), block `t` is elements 32·t … 32·t + 31, and the blocks cover the result (`Whole`).
  The reference's side: its stages read at an index are the stages of `att` (`RefAttend`). The two programs' matrix
  products, sums and maxima are the same sums and folds on the extended reals, and the one operation they differ by
  — the reference takes the maximum with −∞ a second time — changes nothing (`Attend.max_ninf_top`); no step needs
  the inputs finite, so the precondition is never opened. The idealization rewrote no operation: `preserves` is `True`.
-/
import proofs.«419483_j33586644254987_3_alg».proof.Defs
import proofs.«419483_j33586644254987_3_alg».proof.Proof.Gen.Kernel
import proofs.«419483_j33586644254987_3_alg».proof.Proof.Gen.Kernel.Skeleton
import proofs.«419483_j33586644254987_3_alg».proof.Proof.Gen.Kernel.Launch
import proofs.«419483_j33586644254987_3_alg».proof.Proof.Gen.Kernel.Points
import proofs.«419483_j33586644254987_3_alg».proof.Proof.Gen.Kernel.Frame
import proofs.«419483_j33586644254987_3_alg».proof.Proof.Gen.KernelIdeal
import proofs.«419483_j33586644254987_3_alg».proof.Proof.Gen.KernelIdeal.Skeleton
import proofs.«419483_j33586644254987_3_alg».proof.Proof.Gen.KernelIdeal.Launch
import proofs.«419483_j33586644254987_3_alg».proof.Proof.Gen.KernelIdeal.Points
import proofs.«419483_j33586644254987_3_alg».proof.Proof.Gen.KernelIdeal.Frame
import proofs.«419483_j33586644254987_3_alg».proof.Proof.Gen.ReferenceIdeal
import proofs.«419483_j33586644254987_3_alg».proof.Proof.Gen.Pre_finite_inputs
import proofs.«419483_j33586644254987_3_alg».proof.Proof.Gen.KernelIdeal.Value
import proofs.«419483_j33586644254987_3_alg».proof.Proof.Gen.ReferenceIdeal.Run
import proofs.«419483_j33586644254987_3_alg».proof.Proof.Gen.ReferenceIdeal.Read
import proofs.«419483_j33586644254987_3_alg».proof.Proof.Attend
import proofs.«419483_j33586644254987_3_alg».proof.Proof.AttendAll
import proofs.«419483_j33586644254987_3_alg».proof.Proof.RefAttend
import proofs.«419483_j33586644254987_3_alg».proof.Proof.KerAttend
import proofs.«419483_j33586644254987_3_alg».proof.Proof.Whole
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result stage is `whole` of its two arguments: at (b, t, d) it is batch element `b`'s attention. -/
theorem ref_whole (x0 : (⟨Cert.ReferenceIdeal.S256x36x1024, .f32⟩ : BufTy).Contents (Elt Ideal))
    (x1 : (⟨Cert.ReferenceIdeal.S256x64x1024, .f32⟩ : BufTy).Contents (Elt Ideal)) :
    Cert.ReferenceIdeal.Read.val_main_v22 (F := Ideal) x0 x1 = Cert.Attend.whole x0 x1 := by
  funext i
  obtain ⟨b, t, d, rfl⟩ : ∃ (b : Fin 256) (t : Fin 64) (d : Fin 1024), i = ix3 b t d := ⟨i 0, i 1, i 2, eq_ix3 i⟩
  rw [Cert.Attend.whole_apply]
  exact Cert.ReferenceIdeal.RefAttend.result_eq x0 x1 b t d

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `whole` of the (agreeing) arguments. -/
theorem algebraic : Cert.algebraic_KernelIdeal_ReferenceIdeal := by
  intro m ρ m' ρ' _ hagree
  refine ⟨fun c => Cert.Attend.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, ref_whole, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
